-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S1024x1024 : Shape := ⟨2, ![1024, 1024]⟩
abbrev S1024 : Shape := ⟨1, ![1024]⟩
abbrev S1024x16 : Shape := ⟨2, ![1024, 16]⟩
abbrev S16x1024 : Shape := ⟨2, ![16, 1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x16 : S_.BroadcastsInDim S1024x16 (![] : Fin 0 → Fin S1024x16.rank)
  reducesTo_S1024x16_S_d0_1 : S1024x16.ReducesTo [0, 1] S_
  bcast_S_S16x1024 : S_.BroadcastsInDim S16x1024 (![] : Fin 0 → Fin S16x1024.rank)
  reducesTo_S16x1024_S_d0_1 : S16x1024.ReducesTo [0, 1] S_

variable [Facts]

def fn_part1 {F : FTy → Type} [FloatOps F] (main_arg4 : FVec F S16x1024 .f32) (main_v13 : IVec S_ 1) (main_v16 : IVec S1024x16 1) : IVec S_ 1 :=
  let main_c_5 : IVec S_ 1 := constantI S_ 1 1#1
  let main_v17 : IVec S_ 1 := (fun x v => Host.reduce IntOp.andi x v reducesTo_S1024x16_S_d0_1 h_S_) main_v16 main_c_5
  let main_v18 : IVec S_ 1 := andi main_v13 main_v17
  let main_v19 : FVec F S16x1024 .f32 := Host.absf main_arg4
  let main_cst_6 : FVec F S_ .f32 := constant S_ .f32 0x7F800000#32
  let main_v20 : FVec F S16x1024 .f32 := broadcastInDim S16x1024 ![] bcast_S_S16x1024 main_cst_6
  let main_v21 : IVec S16x1024 1 := cmpf .olt main_v19 main_v20
  let main_c_7 : IVec S_ 1 := constantI S_ 1 1#1
  let main_v22 : IVec S_ 1 := (fun x v => Host.reduce IntOp.andi x v reducesTo_S16x1024_S_d0_1 h_S_) main_v21 main_c_7
  let main_v23 : IVec S_ 1 := andi main_v18 main_v22
  main_v23

def fn {F : FTy → Type} [FloatOps F] (main_arg0 : FVec F S4x8192x1024 .f32) (main_arg1 : FVec F S1024x1024 .f32) (main_arg2 : FVec F S1024 .f32) (main_arg3 : FVec F S1024x16 .f32) (main_arg4 : FVec F S16x1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x16 .f32 := Host.absf main_arg3
  let main_cst_4 : FVec F S_ .f32 := constant S_ .f32 0x7F800000#32
  let main_v15 : FVec F S1024x16 .f32 := broadcastInDim S1024x16 ![] bcast_S_S1024x16 main_cst_4
  let main_v16 : IVec S1024x16 1 := cmpf .olt main_v14 main_v15
  fn_part1 (F := F) main_arg4 main_v13 main_v16
-- ==== Kernel.lean ====
abbrev S4x8192x1024 : Shape := ⟨3, ![4, 8192, 1024]⟩
abbrev S1024x1024 : Shape := ⟨2, ![1024, 1024]⟩
abbrev S1024 : Shape := ⟨1, ![1024]⟩
abbrev S1024x16 : Shape := ⟨2, ![1024, 16]⟩
abbrev S16x1024 : Shape := ⟨2, ![16, 1024]⟩
abbrev S_ : Shape := ⟨0, ![]⟩
abbrev S1x1024 : Shape := ⟨2, ![1, 1024]⟩
abbrev S32768x1024 : Shape := ⟨2, ![32768, 1024]⟩
abbrev S512x1024 : Shape := ⟨2, ![512, 1024]⟩
abbrev S512x16 : Shape := ⟨2, ![512, 16]⟩

abbrev nBuf : Space → Nat
  | .hbm => 30
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S1024x1024, .f32⟩
  | .hbm, ⟨2, _⟩ => ⟨S1024, .f32⟩
  | .hbm, ⟨3, _⟩ => ⟨S1024x16, .f32⟩
  | .hbm, ⟨4, _⟩ => ⟨S16x1024, .f32⟩
  | .hbm, ⟨5, _⟩ => ⟨S1024x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x1024, .bf16⟩
  | .hbm, ⟨24, _⟩ => ⟨S1024x16, .bf16⟩
  | .hbm, ⟨25, _⟩ => ⟨S16x1024, .bf16⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S4x8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x16, .bf16⟩
  | .local _ .vmem, ⟨4, _⟩ => ⟨S16x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S1024x1024_S_d0_1 : S1024x1024.ReducesTo [0, 1] S_
  h_S_ : 0 < S_.numel
  bcast_S_S1024x1024 : S_.BroadcastsInDim S1024x1024 (![] : Fin 0 → Fin S1024x1024.rank)
  bitsLt_bf16_f32 : FTy.bits .bf16 < FTy.bits .f32
  shapeCasts_S1024_S1x1024 : S1024.ShapeCasts S1x1024
  shapeCasts_S4x8192x1024_S32768x1024 : S4x8192x1024.ShapeCasts S32768x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  shapeCasts_S32768x1024_S4x8192x1024 : S32768x1024.ShapeCasts S4x8192x1024
  dot_S512x1024_S1024x1024_S512x1024_1_0_0_1_n_n_wf : DotDims.WF S512x1024 S1024x1024 S512x1024 [1] [0] [0] [1] [] []
  dot_S512x1024_S1024x16_S512x16_1_0_0_1_n_n_wf : DotDims.WF S512x1024 S1024x16 S512x16 [1] [0] [0] [1] [] []
  dot_S512x16_S16x1024_S512x1024_1_0_0_1_n_n_wf : DotDims.WF S512x16 S16x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S1024x16.size a
  hwx0_2 : ∀ i : grid0.Coords, EltTy.bits .bf16 = 32 ∨ (Rect.block (s := S1024x16) S1024x16.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x1024.size a
  hwx0_3 : ∀ i : grid0.Coords, EltTy.bits .bf16 = 32 ∨ (Rect.block (s := S16x1024) S16x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S32768x1024.size a
  hwx0_5 : ∀ i : grid0.Coords, EltTy.bits .f32 = 32 ∨ (Rect.block (s := S32768x1024) S512x1024.size (cc0_transform_5 i) (hinb0_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x16_S512x16_1_0_0_1_n_n : DotDims S512x1024 S1024x16 S512x16 where
  lhsContracting := [1]
  rhsContracting := [0]
  lhsNonContracting := [0]
  rhsNonContracting := [1]
  lhsBatch := []
  rhsBatch := []
  wf := dot_S512x1024_S1024x16_S512x16_1_0_0_1_n_n_wf
def dot_S512x16_S16x1024_S512x1024_1_0_0_1_n_n : DotDims S512x16 S16x1024 S512x1024 where
  lhsContracting := [1]
  rhsContracting := [0]
  lhsNonContracting := [0]
  rhsNonContracting := [1]
  lhsBatch := []
  rhsBatch := []
  wf := dot_S512x16_S16x1024_S512x1024_1_0_0_1_n_n_wf

abbrev win0_0 : Pipeline.Window sig grid0 :=
  Pipeline.Window.ofSpec (Memref.whole main_v13) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S16x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S1024x1024 : Shape := ⟨2, ![1024, 1024]⟩
abbrev S1024 : Shape := ⟨1, ![1024]⟩
abbrev S1024x16 : Shape := ⟨2, ![1024, 16]⟩
abbrev S16x1024 : Shape := ⟨2, ![16, 1024]⟩
abbrev S_ : Shape := ⟨0, ![]⟩
abbrev S1x1x1024 : Shape := ⟨3, ![1, 1, 1024]⟩
abbrev S4x8192x16 : Shape := ⟨3, ![4, 8192, 16]⟩

abbrev nBuf : Space → Nat
  | .hbm => 30
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x1024, .f32⟩
  | .hbm, ⟨2, _⟩ => ⟨S1024, .f32⟩
  | .hbm, ⟨3, _⟩ => ⟨S1024x16, .f32⟩
  | .hbm, ⟨4, _⟩ => ⟨S16x1024, .f32⟩
  | .hbm, ⟨5, _⟩ => ⟨S1024x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S4x8192x1024, .f32⟩
  | .hbm, ⟨24, _⟩ => ⟨S1x1x1024, .f32⟩
  | .hbm, ⟨25, _⟩ => ⟨S4x8192x1024, .f32⟩
  | .hbm, ⟨26, _⟩ => ⟨S4x8192x1024, .f32⟩
  | .hbm, ⟨27, _⟩ => ⟨S4x8192x16, .f32⟩
  | .hbm, ⟨28, _⟩ => ⟨S4x8192x1024, .f32⟩
  | .hbm, ⟨29, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩

abbrev nD : Nat := 1
abbrev τ : Topo := Topo.v7x

variable {F : FTy → Type} [FloatOps F]

class Facts₀ : Prop where
  reducesTo_S1024x1024_S_d0_1 : S1024x1024.ReducesTo [0, 1] S_
  h_S_ : 0 < S_.numel
  bcast_S_S1024x1024 : S_.BroadcastsInDim S1024x1024 (![] : Fin 0 → Fin S1024x1024.rank)
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)
  dot_S4x8192x1024_S1024x1024_S4x8192x1024_2_0_01_1_n_n_wf : DotDims.WF S4x8192x1024 S1024x1024 S4x8192x1024 [2] [0] [0, 1] [1] [] []
  dot_S4x8192x1024_S1024x16_S4x8192x16_2_0_01_1_n_n_wf : DotDims.WF S4x8192x1024 S1024x16 S4x8192x16 [2] [0] [0, 1] [1] [] []
  dot_S4x8192x16_S16x1024_S4x8192x1024_2_0_01_1_n_n_wf : DotDims.WF S4x8192x16 S16x1024 S4x8192x1024 [2] [0] [0, 1] [1] [] []

variable [Facts₀]

def dot_S4x8192x1024_S1024x1024_S4x8192x1024_2_0_01_1_n_n : DotDims S4x8192x1024 S1024x1024 S4x8192x1024 where
  lhsContracting := [2]
  rhsContracting := [0]
  lhsNonContracting := [0, 1]
  rhsNonContracting := [1]
  lhsBatch := []
  rhsBatch := []
  wf := dot_S4x8192x1024_S1024x1024_S4x8192x1024_2_0_01_1_n_n_wf
def dot_S4x8192x1024_S1024x16_S4x8192x16_2_0_01_1_n_n : DotDims S4x8192x1024 S1024x16 S4x8192x16 where
  lhsContracting := [2]
  rhsContracting := [0]
  lhsNonContracting := [0, 1]
  rhsNonContracting := [1]
  lhsBatch := []
  rhsBatch := []
  wf := dot_S4x8192x1024_S1024x16_S4x8192x16_2_0_01_1_n_n_wf
def dot_S4x8192x16_S16x1024_S4x8192x1024_2_0_01_1_n_n : DotDims S4x8192x16 S16x1024 S4x8192x1024 where
  lhsContracting := [2]
  rhsContracting := [0]
  lhsNonContracting := [0, 1]
  rhsNonContracting := [1]
  lhsBatch := []
  rhsBatch := []
  wf := dot_S4x8192x16_S16x1024_S4x8192x1024_2_0_01_1_n_n_wf

class Facts : Prop extends Facts₀ where

variable [Facts]
-- ==== Proof.Spec.lean ====
/-
  The function both programs compute, over the extended reals.

  One output row is determined by one input row `xr : Fin 1024 → EReal`: at column `f` it is
      (∑ d, xr d * W (d, f) + bias f) + ∑ k, (∑ d, xr d * a (d, k)) * b (k, f),
  the dense product with the (quantized) weights plus the bias, plus the rank-16 correction with the
  small product taken first. `flat` applies it to every row of a matrix of `R` rows with the bias kept as a
  one-row matrix; `cube` applies it to every row `(p, s)` of a `4 × 8192 × 1024` array with the bias a vector.
  `cube_eq`: laying the `4 × 8192` rows out as `32768` rows, applying `flat` and laying the result out again
  as `4 × 8192` rows is `cube` — row `(p, s)` is row `8192 p + s`, and nothing else moves.
-/
import Idealize.ShloMosaic.PureOps.Ideal
import Idealize.ShloMosaic.Lib.ValueIdx
import Idealize.ShloMosaic.Lib.ValueLayout
import Idealize.ShloMosaic.Lib.Pipeline.Value

noncomputable section

open Idealize.ShloMosaic Idealize.ShloMosaic.ValueIdx
open scoped BigOperators

namespace Cert.Dense

/-- One output row's entry at column `f`, from the input row `xr`. -/
def rowOut (xr : Fin 1024 → EReal) (W : (⟨2, ![1024, 1024]⟩ : Shape).Idx → EReal) (a : (⟨2, ![1024, 16]⟩ : Shape).Idx → EReal)
    (b : (⟨2, ![16, 1024]⟩ : Shape).Idx → EReal) (bias : Fin 1024 → EReal) (f : Fin 1024) : EReal :=
  ((∑ d : Fin 1024, xr d * W (ix2 d f)) + bias f) + ∑ k : Fin 16, (∑ d : Fin 1024, xr d * a (ix2 d k)) * b (ix2 k f)

/-- `rowOut` on every row of a matrix of `R` rows; the bias is the one row of a `1 × 1024` matrix. -/
def flat {R : Nat} (x : (⟨2, ![R, 1024]⟩ : Shape).Idx → EReal) (W : (⟨2, ![1024, 1024]⟩ : Shape).Idx → EReal)
    (a : (⟨2, ![1024, 16]⟩ : Shape).Idx → EReal) (b : (⟨2, ![16, 1024]⟩ : Shape).Idx → EReal)
    (bias : (⟨2, ![1, 1024]⟩ : Shape).Idx → EReal) : (⟨2, ![R, 1024]⟩ : Shape).Idx → EReal := fun j =>
  rowOut (fun d => x (ix2 (j 0) d)) W a b (fun f => bias (ix2 (0 : Fin 1) f)) (j 1)

theorem flat_apply {R : Nat} (x : (⟨2, ![R, 1024]⟩ : Shape).Idx → EReal) (W : (⟨2, ![1024, 1024]⟩ : Shape).Idx → EReal)
    (a : (⟨2, ![1024, 16]⟩ : Shape).Idx → EReal) (b : (⟨2, ![16, 1024]⟩ : Shape).Idx → EReal)
    (bias : (⟨2, ![1, 1024]⟩ : Shape).Idx → EReal) (r : Fin R) (f : Fin 1024) :
    flat x W a b bias (ix2 r f) = rowOut (fun d => x (ix2 r d)) W a b (fun f => bias (ix2 (0 : Fin 1) f)) f := rfl

/-- `rowOut` on every row `(p, s)` of a `4 × 8192 × 1024` array; the bias is a vector. -/
def cube (x : (⟨3, ![4, 8192, 1024]⟩ : Shape).Idx → EReal) (W : (⟨2, ![1024, 1024]⟩ : Shape).Idx → EReal)
    (a : (⟨2, ![1024, 16]⟩ : Shape).Idx → EReal) (b : (⟨2, ![16, 1024]⟩ : Shape).Idx → EReal)
    (bias : (⟨1, ![1024]⟩ : Shape).Idx → EReal) : (⟨3, ![4, 8192, 1024]⟩ : Shape).Idx → EReal := fun i =>
  rowOut (fun d => x (ix3 (i 0) (i 1) d)) W a b (fun f => bias (ix1 f)) (i 2)

theorem cube_apply (x : (⟨3, ![4, 8192, 1024]⟩ : Shape).Idx → EReal) (W : (⟨2, ![1024, 1024]⟩ : Shape).Idx → EReal)
    (a : (⟨2, ![1024, 16]⟩ : Shape).Idx → EReal) (b : (⟨2, ![16, 1024]⟩ : Shape).Idx → EReal)
    (bias : (⟨1, ![1024]⟩ : Shape).Idx → EReal) (p : Fin 4) (s : Fin 8192) (f : Fin 1024) :
    cube x W a b bias (ix3 p s f) = rowOut (fun d => x (ix3 p s d)) W a b (fun f => bias (ix1 f)) f := rfl

/-- Row `(p, s)` of the `4 × 8192` rows is row `8192 p + s` of the `32768`. -/
def rowOf (p : Fin 4) (s : Fin 8192) : Fin 32768 := ⟨p.val * 8192 + s.val, by have := p.isLt; have := s.isLt; omega⟩

/-- An array laid out as `32768 × 1024` reads, at `(8192 p + s, d)`, the `4 × 8192 × 1024` array at `(p, s, d)`. -/
theorem flatten_apply {α : Type} (x : (⟨3, ![4, 8192, 1024]⟩ : Shape).Idx → α)
    (h : (⟨3, ![4, 8192, 1024]⟩ : Shape).ShapeCasts ⟨2, ![32768, 1024]⟩) (p : Fin 4) (s : Fin 8192) (d : Fin 1024) :
    shapeCast ⟨2, ![32768, 1024]⟩ x h (ix2 (rowOf p s) d) = x (ix3 p s d) :=
  shapeCast_apply x h _ _ (by
    rw [Shape.rowMajor_val_three, Shape.rowMajor_val_two]
    rfl)

/-- An array laid out as `4 × 8192 × 1024` reads, at `(p, s, f)`, the `32768 × 1024` array at `(8192 p + s, f)`. -/
theorem unflatten_apply {α : Type} (y : (⟨2, ![32768, 1024]⟩ : Shape).Idx → α)
    (h : (⟨2, ![32768, 1024]⟩ : Shape).ShapeCasts ⟨3, ![4, 8192, 1024]⟩) (p : Fin 4) (s : Fin 8192) (f : Fin 1024) :
    shapeCast ⟨3, ![4, 8192, 1024]⟩ y h (ix3 p s f) = y (ix2 (rowOf p s) f) :=
  shapeCast_apply y h _ _ (by
    rw [Shape.rowMajor_val_three, Shape.rowMajor_val_two]
    rfl)

/-- Flatten the rows, apply `flat` with the bias as a one-row matrix, lay the rows out again: `cube`. -/
theorem cube_eq (x : (⟨3, ![4, 8192, 1024]⟩ : Shape).Idx → EReal) (W : (⟨2, ![1024, 1024]⟩ : Shape).Idx → EReal)
    (a : (⟨2, ![1024, 16]⟩ : Shape).Idx → EReal) (b : (⟨2, ![16, 1024]⟩ : Shape).Idx → EReal)
    (bias : (⟨1, ![1024]⟩ : Shape).Idx → EReal)
    (h1 : (⟨3, ![4, 8192, 1024]⟩ : Shape).ShapeCasts ⟨2, ![32768, 1024]⟩)
    (h2 : (⟨1, ![1024]⟩ : Shape).ShapeCasts ⟨2, ![1, 1024]⟩)
    (h3 : (⟨2, ![32768, 1024]⟩ : Shape).ShapeCasts ⟨3, ![4, 8192, 1024]⟩) :
    shapeCast ⟨3, ![4, 8192, 1024]⟩
        (flat (shapeCast ⟨2, ![32768, 1024]⟩ x h1) W a b (shapeCast ⟨2, ![1, 1024]⟩ bias h2)) h3
      = cube x W a b bias := by
  funext i
  obtain ⟨p, s, f, rfl⟩ : ∃ (p : Fin 4) (s : Fin 8192) (f : Fin 1024), i = ix3 p s f := ⟨i 0, i 1, i 2, eq_ix3 i⟩
  rw [unflatten_apply, flat_apply, cube_apply]
  congr 1
  · funext d; exact flatten_apply x h1 p s d
  · funext f'; exact shapeCast_a_1a_apply bias h2 (0 : Fin 1) f'

end Cert.Dense

end
-- ==== Proof.RefValue.lean ====
/-
  The reference's result is `cube`.

  Stage by stage the reference computes, at `(p, s, f)`: the contraction over `d` of `x (p, s, d)` with the quantized
  weights at `(d, f)`; plus the bias at `f` (a vector laid along the last axis and repeated over the rows); plus the
  contraction over `k` of (the contraction over `d` of `x (p, s, d)` with `a (d, k)`) with `b (k, f)`. That is `rowOut` of
  row `(p, s)` at column `f`; the quantized weights enter only as an array, never opened.
-/
import proofs.«153939_j89215060673243_1_alg».proof.Proof.Gen.ReferenceIdeal.Read
import proofs.«153939_j89215060673243_1_alg».proof.Proof.Spec

noncomputable section

open Idealize.ShloMosaic Idealize.ShloMosaic.ValueIdx
open scoped BigOperators

namespace Cert.ReferenceIdeal.RefValue

open Cert.ReferenceIdeal Cert.ReferenceIdeal.Read Cert.Dense

variable (p : Fin 4) (s : Fin 8192) (f : Fin 1024)

/-- The dense product reads row `(p, s)` of `x` at `d` … -/
theorem lidx_dense (d : Fin 1024) : lidx_main_v9 (ix3 p s f) d = ix3 p s d :=
  funext fun a => by match a with | ⟨0, _⟩ => rfl | ⟨1, _⟩ => rfl | ⟨2, _⟩ => rfl
/-- … against the weights at `(d, f)`. -/
theorem ridx_dense (d : Fin 1024) : ridx_main_v9 (ix3 p s f) d = ix2 d f :=
  funext fun a => by match a with | ⟨0, _⟩ => rfl | ⟨1, _⟩ => rfl
/-- The bias, broadcast twice, reads the vector at `f`. -/
theorem idx_bias : idx_main_v10 (idx_main_v11 (ix3 p s f)) = ix1 f :=
  funext fun a => by match a with | ⟨0, _⟩ => rfl
/-- The second small product reads the first at `(p, s, k)` … -/
theorem lidx_up (k : Fin 16) : lidx_main_v14 (ix3 p s f) k = ix3 p s k :=
  funext fun a => by match a with | ⟨0, _⟩ => rfl | ⟨1, _⟩ => rfl | ⟨2, _⟩ => rfl
/-- … against `b` at `(k, f)`. -/
theorem ridx_up (k : Fin 16) : ridx_main_v14 (ix3 p s f) k = ix2 k f :=
  funext fun a => by match a with | ⟨0, _⟩ => rfl | ⟨1, _⟩ => rfl
/-- The first small product reads row `(p, s)` of `x` at `d` … -/
theorem lidx_down (k : Fin 16) (d : Fin 1024) : lidx_main_v13 (ix3 p s k) d = ix3 p s d :=
  funext fun a => by match a with | ⟨0, _⟩ => rfl | ⟨1, _⟩ => rfl | ⟨2, _⟩ => rfl
/-- … against `a` at `(d, k)`. -/
theorem ridx_down (k : Fin 16) (d : Fin 1024) : ridx_main_v13 (ix3 p s k) d = ix2 d k :=
  funext fun a => by match a with | ⟨0, _⟩ => rfl | ⟨1, _⟩ => rfl

/-- The reference's last stage is `cube` of the arguments, with the quantized weights `val_main_v8 x1` as the matrix. -/
theorem result_eq (x0 : FVec Ideal S4x8192x1024 .f32) (x1 : FVec Ideal S1024x1024 .f32) (x2 : FVec Ideal S1024 .f32)
    (x3 : FVec Ideal S1024x16 .f32) (x4 : FVec Ideal S16x1024 .f32) :
    val_main_v15 (F := Ideal) x0 x1 x2 x3 x4 = cube x0 (val_main_v8 (F := Ideal) x1) x3 x4 x2 := by
  funext i
  obtain ⟨p, s, f, rfl⟩ : ∃ (p : Fin 4) (s : Fin 8192) (f : Fin 1024), i = ix3 p s f := ⟨i 0, i 1, i 2, eq_ix3 i⟩
  rw [val_main_v15_apply, val_main_v12_apply, val_main_v9_apply, val_main_v11_apply, val_main_v10_apply,
    val_main_v14_apply, cube_apply]
  unfold rowOut
  simp only [val_main_v13_apply, lidx_dense, ridx_dense, idx_bias, lidx_up, ridx_up, lidx_down, ridx_down,
    Ideal.addf_def]

end Cert.ReferenceIdeal.RefValue

end
-- ==== Proof.LibPlainMatmul.lean ====
/-
  A matrix product into a zero accumulator, read at an entry, over the extended reals.

  For the dimension numbers of a plain product, rows by contraction times contraction by columns
  (`DotDims.plain M K N`: the left operand contracted on its second axis, the right on its first, no batch
  axis), the entry `(r, c)` of `lhs · rhs + 0` is the sum over the contraction coordinate `k : Fin K` of
  `lhs (r, k) * rhs (k, c)`. Generic in the three extents and in the operands' float formats.
-/
import Idealize.ShloMosaic.PureOps.Ideal.Laws
import Idealize.ShloMosaic.Lib.ValueIdx

noncomputable section

open Idealize.ShloMosaic Idealize.ShloMosaic.ValueIdx
open scoped BigOperators

namespace Cert.PlainMatmul

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := rfl

/-- Entry `(r, c)` of a plain matrix product accumulated into zero is `∑ k, lhs (r, k) * rhs (k, c)`: the
    contraction index set has one axis of extent `K`, and the sum is re-indexed along it. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhs_row _ _).trans hk
      | ⟨1, _⟩ => exact rhs_col _ _)
  rw [el, er]

end Cert.PlainMatmul

end
-- ==== Proof.Body.lean ====
/-
  The kernel body's stored value is `flat` of its loaded blocks.

  The body loads a block of 512 rows of `x`, the whole weight matrix, the whole `a` and `b` and the one-row bias, and stores
  (x·W + bias) + (x·a)·b: three matrix products into zero accumulators, the bias row repeated over the 512 rows, two
  additions. The casts of a block to its own shape change nothing, and over the extended reals neither do the changes
  of float format. Entry `(r, f)` of the stored block is `rowOut` of the block's row `r` at column `f`.
-/
import proofs.«153939_j89215060673243_1_alg».proof.Proof.Gen.KernelIdeal.Skeleton
import proofs.«153939_j89215060673243_1_alg».proof.Proof.LibPlainMatmul
import proofs.«153939_j89215060673243_1_alg».proof.Proof.Spec
import Idealize.ShloMosaic.Lib.ValueLayout

noncomputable section

open Idealize.ShloMosaic Idealize.ShloMosaic.ValueIdx
open scoped BigOperators

namespace Cert.KernelIdeal.Body

open Cert.KernelIdeal Cert.KernelIdeal.Gen Cert.Dense

/-- The dense product: 512 rows by 1024, times 1024 by 1024. -/
theorem mm_dense (l : FVec Ideal S512x1024 .bf16) (w : FVec Ideal S1024x1024 .bf16) (r : Fin 512) (f : Fin 1024) :
    matmul dot_S512x1024_S1024x1024_S512x1024_1_0_0_1_n_n none l w (constant S512x1024 .f32 0x00000000#32) (ix2 r f)
      = ∑ d : Fin 1024, l (ix2 r d) * w (ix2 d f) :=
  PlainMatmul.matmul_zero_apply none l w r f

/-- The first small product: 512 rows by 1024, times 1024 by 16. -/
theorem mm_down (l : FVec Ideal S512x1024 .bf16) (a : FVec Ideal S1024x16 .bf16) (r : Fin 512) (k : Fin 16) :
    matmul dot_S512x1024_S1024x16_S512x16_1_0_0_1_n_n none l a (constant S512x16 .f32 0x00000000#32) (ix2 r k)
      = ∑ d : Fin 1024, l (ix2 r d) * a (ix2 d k) :=
  PlainMatmul.matmul_zero_apply none l a r k

/-- The second small product: 512 rows by 16, times 16 by 1024. -/
theorem mm_up (l : FVec Ideal S512x16 .bf16) (b : FVec Ideal S16x1024 .bf16) (r : Fin 512) (f : Fin 1024) :
    matmul dot_S512x16_S16x1024_S512x1024_1_0_0_1_n_n none l b (constant S512x1024 .f32 0x00000000#32) (ix2 r f)
      = ∑ k : Fin 16, l (ix2 r k) * b (ix2 k f) :=
  PlainMatmul.matmul_zero_apply none l b r f

/-- The stored block is `flat` of the loaded blocks: rows from the `x` block, the weights, `a`, `b`, and the bias row. -/
theorem payload_eq (v0 : Vec Ideal S512x1024 .f32) (v3 : Vec Ideal S1024x1024 .bf16) (v6 : Vec Ideal S1x1024 .f32)
    (v10 : Vec Ideal S1024x16 .bf16) (v14 : Vec Ideal S16x1024 .bf16) :
    k0_pay1 (F := Ideal) v0 v3 v6 v10 v14 = flat (R := 512) v0 v3 v10 v14 v6 := by
  funext j
  obtain ⟨r, f, rfl⟩ : ∃ (r : Fin 512) (f : Fin 1024), j = ix2 r f := ⟨j 0, j 1, eq_ix2 j⟩
  rw [flat_apply]
  unfold rowOut k0_pay1
  simp only [shapeCast_self]
  rw [addf_apply, addf_apply]
  refine congrArg₂ (· + ·) (congrArg₂ (· + ·) (mm_dense _ v3 r f) (broadcastTo_1b_ab_apply v6 _ r f)) ?_
  exact (mm_up _ v14 r f).trans (Finset.sum_congr rfl fun k _ => congrArg (· * v14 (ix2 k f)) (mm_down _ v10 r k))

end Cert.KernelIdeal.Body

end
-- ==== Proof.Blocks.lean ====
/-
  From the blocks to the array: after the run the kernel's output array is `flat` of the arrays the region finds.

  The grid has 64 points. At point `t` the `x` window and the output window hold rows `512 t … 512 t + 511` of their
  arrays, all 1024 columns; the weights, `a`, `b` and the bias row are windows over their whole arrays, the same block at
  every point. So what point `t` writes back — `flat` of its blocks — is rows `512 t …` of `flat` of the whole arrays
  (`flat` works row by row), and the 64 blocks cover the 32768 rows: row `i` lies in block `i / 512`.
-/
import proofs.«153939_j89215060673243_1_alg».proof.Proof.Gen.KernelIdeal.Frame
import proofs.«153939_j89215060673243_1_alg».proof.Proof.Body
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.KernelIdeal.Blocks

open Cert.KernelIdeal Cert.KernelIdeal.Gen Cert.Dense

variable (m : (ℓ : Loc nD τ sig) → Buf (Elt Ideal) ℓ)

/-! ## The arrays as the region finds them, at their literal types -/

/-- The rows: `x` laid out as 32768 rows. -/
abbrev xArr (c : Dev nD) : Vec Ideal S32768x1024 .f32 := V m c main_v13
/-- The quantized weights. -/
abbrev wArr (c : Dev nD) : Vec Ideal S1024x1024 .bf16 := V m c main_v9
abbrev aArr (c : Dev nD) : Vec Ideal S1024x16 .bf16 := V m c main_v10
abbrev bArr (c : Dev nD) : Vec Ideal S16x1024 .bf16 := V m c main_v11
/-- The bias as a one-row matrix. -/
abbrev biasArr (c : Dev nD) : Vec Ideal S1x1024 .f32 := V m c main_v12

/-- What the output array ends holding: `flat` of those arrays. -/
abbrev outArr (c : Dev nD) : Vec Ideal S32768x1024 .f32 :=
  flat (R := 32768) (xArr m c) (wArr m c) (aArr m c) (bArr m c) (biasArr m c)

theorem zero_offsets : (![0, 0] : Fin 2 → Nat) = fun _ => 0 := funext fun a => by fin_cases a <;> rfl

/-! ## The index maps, decided over the 64 points -/

/-- The `x` window and the output window sit at block row `t`, block column 0; the other four windows at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 64 := lt_of_lt_of_eq t.isLt N_0

/-- Row `r` of point `t`'s block is row `512 t + r` of the array. -/
def rowAt (t : Fin cfg0.N) (r : Fin 512) : Fin 32768 :=
  ⟨t.val * 512 + r.val, by have := point_lt t; have := r.isLt; omega⟩

/-! ## The input blocks -/

/-- The weights' window is the whole matrix at every point. -/
theorem wblk (c : Dev nD) (t : Fin cfg0.N) : iblk m c 1 t = wArr m c := by
  funext y
  show V m c main_v9 (((cfg0.win 1).blk t).view.emb y) = V m c main_v9 y
  obtain ⟨-, -, e0, e1, -⟩ := idx_facts t
  refine congrArg _ (funext fun a => Fin.ext ?_)
  match a with
  | ⟨0, _⟩ => show win0_1.index t (0 : Fin 2) * 1024 + 1 * (y 0).val = (y 0).val; omega
  | ⟨1, _⟩ => show win0_1.index t (1 : Fin 2) * 1024 + 1 * (y 1).val = (y 1).val; omega

theorem ablk (c : Dev nD) (t : Fin cfg0.N) : iblk m c 2 t = aArr m c := by
  funext y
  show V m c main_v10 (((cfg0.win 2).blk t).view.emb y) = V m c main_v10 y
  obtain ⟨-, -, -, -, e0, e1, -⟩ := idx_facts t
  refine congrArg _ (funext fun a => Fin.ext ?_)
  match a with
  | ⟨0, _⟩ => show win0_2.index t (0 : Fin 2) * 1024 + 1 * (y 0).val = (y 0).val; omega
  | ⟨1, _⟩ => show win0_2.index t (1 : Fin 2) * 16 + 1 * (y 1).val = (y 1).val; omega

theorem bblk (c : Dev nD) (t : Fin cfg0.N) : iblk m c 3 t = bArr m c := by
  funext y
  show V m c main_v11 (((cfg0.win 3).blk t).view.emb y) = V m c main_v11 y
  obtain ⟨-, -, -, -, -, -, e0, e1, -⟩ := idx_facts t
  refine congrArg _ (funext fun a => Fin.ext ?_)
  match a with
  | ⟨0, _⟩ => show win0_3.index t (0 : Fin 2) * 16 + 1 * (y 0).val = (y 0).val; omega
  | ⟨1, _⟩ => show win0_3.index t (1 : Fin 2) * 1024 + 1 * (y 1).val = (y 1).val; omega

theorem biasblk (c : Dev nD) (t : Fin cfg0.N) : iblk m c 4 t = biasArr m c := by
  funext y
  show V m c main_v12 (((cfg0.win 4).blk t).view.emb y) = V m c main_v12 y
  obtain ⟨-, -, -, -, -, -, -, -, e0, e1, -⟩ := idx_facts t
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 1024 + 1 * (y 1).val = (y 1).val; omega

/-- The `x` window's block at point `t` holds rows `512 t + r`. -/
theorem xblk (c : Dev nD) (t : Fin cfg0.N) (r : Fin 512) (d : Fin 1024) :
    iblk m c 0 t (ix2 r d) = xArr m c (ix2 (rowAt t r) d) := by
  show V m c main_v13 (((cfg0.win 0).blk t).view.emb (ix2 r d)) = V m c main_v13 (ix2 (rowAt t r) d)
  obtain ⟨e0, e1, -⟩ := idx_facts t
  refine congrArg _ (funext fun a => Fin.ext ?_)
  match a with
  | ⟨0, _⟩ => show win0_0.index t (0 : Fin 2) * 512 + 1 * r.val = t.val * 512 + r.val; omega
  | ⟨1, _⟩ => show win0_0.index t (1 : Fin 2) * 1024 + 1 * d.val = d.val; omega

/-- Entry `(r, f)` of the output window's block at point `t` sits at `(512 t + r, f)` in the array. -/
theorem out_emb (t : Fin cfg0.N) (r : Fin 512) (f : Fin 1024) :
    ((cfg0.win 5).blk t).view.emb (ix2 r f) = ix2 (rowAt t r) f := by
  obtain ⟨-, -, -, -, -, -, -, -, -, -, e0, e1⟩ := idx_facts t
  refine funext fun a => Fin.ext ?_
  match a with
  | ⟨0, _⟩ => show win0_5.index t (0 : Fin 2) * 512 + 1 * r.val = t.val * 512 + r.val; omega
  | ⟨1, _⟩ => show win0_5.index t (1 : Fin 2) * 1024 + 1 * f.val = f.val; omega

/-! ## What a point writes back -/

/-- Point `t` writes back block `t` of `outArr`. -/
theorem flushed_eq (c : Dev nD) (t : Fin cfg0.N) :
    (dats m 0 c).flushed 5 t = ((cfg0.win 5).blk t).view.read (Elt Ideal) (outArr m c) := by
  show (cfg0.win 5).cut (grid0.coords t) ((dats m 0 c).after 5 t) = _
  rw [after0_5]
  unfold out0_5
  rw [View.canon_unit_zero zero_offsets]
  simp only [View.ld_unit_zero (S := S512x1024) zero_offsets, View.ld_unit_zero (S := S1024x1024) zero_offsets,
    View.ld_unit_zero (S := S1x1024) zero_offsets, View.ld_unit_zero (S := S1024x16) zero_offsets,
    View.ld_unit_zero (S := S16x1024) zero_offsets]
  rw [Body.payload_eq, wblk, ablk, bblk, biasblk]
  funext j
  obtain ⟨r, f, rfl⟩ : ∃ (r : Fin 512) (f : Fin 1024), j = ix2 r f := ⟨j 0, j 1, eq_ix2 j⟩
  show flat (R := 512) (iblk m c 0 t) (wArr m c) (aArr m c) (bArr m c) (biasArr m c) (ix2 r f)
    = outArr m c (((cfg0.win 5).blk t).view.emb (ix2 r f))
  rw [out_emb, flat_apply]
  show _ = rowOut (fun d => xArr m c (ix2 (rowAt t r) d)) (wArr m c) (aArr m c) (bArr m c)
    (fun f => biasArr m c (ix2 (0 : Fin 1) f)) f
  refine congrArg (fun xr => rowOut xr (wArr m c) (aArr m c) (bArr m c) (fun f => biasArr m c (ix2 (0 : Fin 1) f)) f) ?_
  funext d
  exact xblk m c t r d

/-! ## The cover -/

/-- An index of the array is in point `t`'s block iff each coordinate is in the block's range on its axis. -/
theorem mem_blk (t : Fin cfg0.N) (i : S32768x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v14).slice (win0_5.rect t)).set ↔ _
  rw [View.set_slice_whole, Rect.mem_set_unit]
  exact Iff.rfl

/-- Every index of the output array is in the block of the point `(i 0) / 512`, which writes back. -/
theorem cover (i : S32768x1024.Idx) :
    ∃ t : Fin cfg0.N, (cfg0.win 5).flush t = true ∧ i ∈ ((cfg0.win 5).blk t).view.set := by
  have hi0 : (i 0).val < 32768 := (i 0).isLt
  have hi1 : (i 1).val < 1024 := (i 1).isLt
  have hq : (i 0).val / 512 < cfg0.N := by
    show (i 0).val / 512 < grid0.N
    rw [N_0]; omega
  obtain ⟨-, -, -, -, -, -, -, -, -, -, e0, e1⟩ := idx_facts ⟨(i 0).val / 512, hq⟩
  refine ⟨⟨(i 0).val / 512, hq⟩, flush0_5 _, ?_⟩
  rw [mem_blk]
  intro a
  match a with
  | ⟨0, _⟩ =>
    show win0_5.index ⟨(i 0).val / 512, hq⟩ (0 : Fin 2) * 512 ≤ (i 0).val ∧ (i 0).val < win0_5.index ⟨(i 0).val / 512, hq⟩ (0 : Fin 2) * 512 + 512
    rw [e0]; show (i 0).val / 512 * 512 ≤ (i 0).val ∧ (i 0).val < (i 0).val / 512 * 512 + 512
    omega
  | ⟨1, _⟩ =>
    show win0_5.index ⟨(i 0).val / 512, hq⟩ (1 : Fin 2) * 1024 ≤ (i 1).val ∧ (i 1).val < win0_5.index ⟨(i 0).val / 512, hq⟩ (1 : Fin 2) * 1024 + 1024
    rw [e1]; omega

/-! ## The array after the run -/

/-- After the run the output array holds `outArr`. -/
theorem final (c : Dev nD) : (dats m 0 c).arrAt 5 cfg0.N = outArr m c :=
  (dats m 0 c).arrAt_eq_of_cover 5 (outArr m c) (fun t _ => flushed_eq m c t) cover

end Cert.KernelIdeal.Blocks

end
-- ==== Proof.HostSide.lean ====
/-
  The host operations around the kernel.

  Before the region: the weights are quantized (one global step `max |k| / 7`; each entry divided by the step, rounded to
  the nearest integer with ties to even, clipped to `[-8, 7]`, multiplied by the step) and stored in a narrower float
  format; `a` and `b` are stored in the narrower format; the bias vector is laid out as a one-row matrix and `x` as 32768
  rows. After the region the 32768 result rows are laid out as `4 × 8192` rows. Over the extended reals a change of float
  format is the identity. The quantization is kept as one function `quantW` and never opened.
-/
import proofs.«153939_j89215060673243_1_alg».proof.Proof.Blocks
import Idealize.ShloMosaic.Lib.StableHlo.Run

set_option maxRecDepth 16384

noncomputable section

open Idealize.ShloMosaic Idealize.ShloMosaic.TcCoe Idealize.ShloMosaic.ValueIdx Idealize.SL.Sem Idealize.ShloMosaic.StableHlo

namespace Cert.KernelIdeal.HostSide

open Cert.KernelIdeal Cert.KernelIdeal.Gen Cert.KernelIdeal.Blocks

variable (m : (ℓ : Loc nD τ sig) → Buf (Elt Ideal) ℓ)

/-! ## The arguments at their literal types -/

abbrev xArg (c : Dev nD) : Vec Ideal S4x8192x1024 .f32 := m ((c : Thread nD τ).loc main_arg0)
abbrev wArg (c : Dev nD) : Vec Ideal S1024x1024 .f32 := m ((c : Thread nD τ).loc main_arg1)
abbrev biasArg (c : Dev nD) : Vec Ideal S1024 .f32 := m ((c : Thread nD τ).loc main_arg2)
abbrev aArg (c : Dev nD) : Vec Ideal S1024x16 .f32 := m ((c : Thread nD τ).loc main_arg3)
abbrev bArg (c : Dev nD) : Vec Ideal S16x1024 .f32 := m ((c : Thread nD τ).loc main_arg4)

/-! ## The quantization, as one function -/

/-- The quantization step: the largest absolute value of the matrix, divided by 7. -/
def quantStep (k : FVec Ideal S1024x1024 .f32) : FVec Ideal S_ .f32 :=
  Host.divf (Host.reduce FloatOps.maximumf (Host.absf k) (constant (F := Ideal) S_ .f32 0xFF800000#32) reducesTo_S1024x1024_S_d0_1 h_S_)
    (constant (F := Ideal) S_ .f32 0x40E00000#32)

/-- The matrix quantized: `clip (round (k / step), -8, 7) * step`, entry by entry. -/
def quantW (k : FVec Ideal S1024x1024 .f32) : FVec Ideal S1024x1024 .f32 :=
  mulf
    (minimumf (broadcastInDim S1024x1024 ![] bcast_S_S1024x1024 (id (constant (F := Ideal) S_ .f32 0x40E00000#32)))
      (maximumf (broadcastInDim S1024x1024 ![] bcast_S_S1024x1024 (id (constant (F := Ideal) S_ .f32 0xC1000000#32)))
        (Host.roundeven (Host.divf k (broadcastInDim S1024x1024 ![] bcast_S_S1024x1024 (quantStep k))))))
    (broadcastInDim S1024x1024 ![] bcast_S_S1024x1024 (quantStep k))

/-- Storing an array of extended reals in a narrower float format changes nothing. -/
theorem narrow_id {s : Shape} (v : FVec Ideal s .f32) (h : FTy.bf16.bits < FTy.f32.bits) :
    (truncf .bf16 v h : FVec Ideal s .bf16) = v := rfl

/-! ## The arrays the region finds -/

theorem x_entry (c : Dev nD) : xArr m c = shapeCast S32768x1024 (xArg m c) shapeCasts_S4x8192x1024_S32768x1024 := by
  show V m c main_v13 = _
  dsimp only [V, V0]
  simp only [hostOps0, hostOps0_1, hostOps0_2, hostOps0_3, hostOps0_4, List.flatten_cons, List.flatten_nil, List.append_nil,
    List.cons_append, List.nil_append]
  after_results
  rfl

theorem bias_entry (c : Dev nD) : biasArr m c = shapeCast S1x1024 (biasArg m c) shapeCasts_S1024_S1x1024 := by
  show V m c main_v12 = _
  dsimp only [V, V0]
  simp only [hostOps0, hostOps0_1, hostOps0_2, hostOps0_3, hostOps0_4, List.flatten_cons, List.flatten_nil, List.append_nil,
    List.cons_append, List.nil_append]
  after_results
  rfl

theorem a_entry (c : Dev nD) : aArr m c = aArg m c := by
  show V m c main_v10 = _
  dsimp only [V, V0]
  simp only [hostOps0, hostOps0_1, hostOps0_2, hostOps0_3, hostOps0_4, List.flatten_cons, List.flatten_nil, List.append_nil,
    List.cons_append, List.nil_append]
  after_results
  rfl

theorem b_entry (c : Dev nD) : bArr m c = bArg m c := by
  show V m c main_v11 = _
  dsimp only [V, V0]
  simp only [hostOps0, hostOps0_1, hostOps0_2, hostOps0_3, hostOps0_4, List.flatten_cons, List.flatten_nil, List.append_nil,
    List.cons_append, List.nil_append]
  after_results
  rfl

theorem w_entry (c : Dev nD) : wArr m c = quantW (wArg m c) := by
  show V m c main_v9 = _
  dsimp only [V, V0]
  simp only [hostOps0, hostOps0_1, hostOps0_2, hostOps0_3, hostOps0_4, List.flatten_cons, List.flatten_nil, List.append_nil,
    List.cons_append, List.nil_append]
  after_results
  rfl

/-! ## The reshape after the region -/

/-- The result buffer after the lines that follow the region: the output array, laid out as `4 × 8192` rows. -/
theorem result_tail (c : Dev nD) :
    Pipeline.afterTail₀ cfgs (dats m) 0 (V0 m) [hostOps1] c main_v15
      = shapeCast S4x8192x1024 (outArr m c) shapeCasts_S32768x1024_S4x8192x1024 := by
  unfold Pipeline.afterTail₀
  show StableHlo.after hostOps1 _ (Proc.devRef .tc main_v15) = _
  after_results
  have hw : Pipeline.withArrays (cfgs 0).spec c (V0 m c) (fun w => (dats m 0 c).arrAt w (cfgs 0).N) (Proc.devRef .tc main_v14)
      = outArr m c :=
    (Pipeline.withArrays_arr spec0 launch0.win.arr_inj c _ _ 5).trans (final m c)
  rw [hw]
  rfl

end Cert.KernelIdeal.HostSide

end
-- ==== Proof.KernelValue.lean ====
/-
  The idealized kernel's run, with its result named.

  After the run the output array is `flat` of the arrays the region finds (the blocks, put together); those are the
  arguments laid out as rows, the quantized weights, `a`, `b`, and the bias as a one-row matrix (the host operations
  before the region); the result is that array laid out as `4 × 8192` rows (the host operation after it). Flattening,
  `flat`, and laying out again is `cube`: the result is `cube` of the arguments, with the quantized weights as the matrix.
-/
import proofs.«153939_j89215060673243_1_alg».proof.Proof.HostSide

noncomputable section

open Idealize.ShloMosaic Idealize.ShloMosaic.TcCoe Idealize.SL.Sem

namespace Cert.KernelIdeal.KernelValue

open Cert.KernelIdeal Cert.KernelIdeal.Gen Cert.KernelIdeal.Blocks Cert.KernelIdeal.HostSide Cert.Dense

variable (m : (ℓ : Loc nD τ sig) → Buf (Elt Ideal) ℓ) (ρ : Dev nD → PrngReg)

/-- The kernel's result as a function of the arguments. -/
abbrev result (c : Dev nD) : Vec Ideal S4x8192x1024 .f32 :=
  cube (xArg m c) (quantW (wArg m c)) (aArg m c) (bArg m c) (biasArg m c)

/-- The output array, laid out as `4 × 8192` rows, is `cube` of the arguments. -/
theorem value_eq (c : Dev nD) :
    shapeCast S4x8192x1024 (outArr m c) shapeCasts_S32768x1024_S4x8192x1024 = result m c := by
  show shapeCast S4x8192x1024 (flat (R := 32768) (xArr m c) (wArr m c) (aArr m c) (bArr m c) (biasArr m c))
    shapeCasts_S32768x1024_S4x8192x1024 = _
  rw [x_entry, w_entry, a_entry, b_entry, bias_entry]
  exact cube_eq (xArg m c) (quantW (wArg m c)) (aArg m c) (bArg m c) (biasArg m c) _ _ _

/-- Every weakly fair execution of the idealized kernel terminates with the result at `cube` of the arguments and the
    arguments unchanged. -/
theorem run : θ_run defs (onTc (τ := τ) (main (F := Ideal))) ⟨m, fun _ => 0, ρ⟩ fun r => ∀ c : Dev nD,
      r.2.mem ((c.tc : Thread nD τ).loc main_v15) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v15 (Pipeline.mem_restRefs_of main_v15 (by decide) (by decide))).trans
        ((result_tail m c).trans (value_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelValue

end
-- ==== Proof.lean ====
/-
  A dense layer with quantized weights and a rank-16 correction, against its plain reference, over the extended reals.

  Both programs quantize the 1024 × 1024 weight matrix in the same way (one global step `max |k| / 7`; divide, round to
  the nearest integer, clip to `[-8, 7]`, multiply back) and then compute, for each of the `4 × 8192` rows `xr` of `x`,
      (∑ d, xr d * W (d, f) + bias f) + ∑ k, (∑ d, xr d * a (d, k)) * b (k, f)        (`Cert.Dense.rowOut`).
  The kernel lays the rows out as 32768, works on 64 blocks of 512 rows with three matrix products into zero
  accumulators, and lays the result out again; the reference contracts the three-axis array directly. The two agree
  term by term: the same sums over the same index sets in the same grouping, so no law beyond the definitions is used and
  the inputs' finiteness is never needed. The quantization is carried as one function of the weight matrix on both
  sides and is never opened. The changes of float format in the kernel are the identity over the extended reals.
  The idealization rewrote no operation, so `preserves` is trivial; the three frames are the generated frame runs and the
  reference's generated run with its result dropped.
-/
import proofs.«153939_j89215060673243_1_alg».proof.Defs
import proofs.«153939_j89215060673243_1_alg».proof.Proof.Gen.Kernel
import proofs.«153939_j89215060673243_1_alg».proof.Proof.Gen.Kernel.Skeleton
import proofs.«153939_j89215060673243_1_alg».proof.Proof.Gen.Kernel.Launch
import proofs.«153939_j89215060673243_1_alg».proof.Proof.Gen.Kernel.Points
import proofs.«153939_j89215060673243_1_alg».proof.Proof.Gen.Kernel.Frame
import proofs.«153939_j89215060673243_1_alg».proof.Proof.Gen.KernelIdeal
import proofs.«153939_j89215060673243_1_alg».proof.Proof.Gen.KernelIdeal.Skeleton
import proofs.«153939_j89215060673243_1_alg».proof.Proof.Gen.KernelIdeal.Launch
import proofs.«153939_j89215060673243_1_alg».proof.Proof.Gen.KernelIdeal.Points
import proofs.«153939_j89215060673243_1_alg».proof.Proof.Gen.KernelIdeal.Frame
import proofs.«153939_j89215060673243_1_alg».proof.Proof.Gen.ReferenceIdeal
import proofs.«153939_j89215060673243_1_alg».proof.Proof.Gen.Pre_finite_inputs
import proofs.«153939_j89215060673243_1_alg».proof.Proof.Gen.ReferenceIdeal.Run
import proofs.«153939_j89215060673243_1_alg».proof.Proof.Gen.ReferenceIdeal.Read
import proofs.«153939_j89215060673243_1_alg».proof.Proof.RefValue
import proofs.«153939_j89215060673243_1_alg».proof.Proof.KernelValue
import Idealize.ShloMosaic.Adequacy
import Idealize.ShloMosaic.Init

noncomputable section

namespace Cert.Proof

open Idealize.ShloMosaic Idealize.SL.Sem

/-- The two programs' quantizations are the same function of the weight matrix: the same operations with the same
    constants, stage by stage. -/
theorem quant_eq (k : FVec Ideal Cert.KernelIdeal.S1024x1024 .f32) :
    Cert.ReferenceIdeal.Read.val_main_v8 (F := Ideal) k = Cert.KernelIdeal.HostSide.quantW k := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at `cube` of the arguments: the kernel's by its blocks and the host operations around
    them, the reference's stage by stage; the arguments agree, and so do the quantized weights. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq, (hagree c).1, (hagree c).2.1,
    (hagree c).2.2.1, (hagree c).2.2.2.1, (hagree c).2.2.2.2, quant_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
